-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S64x96 : Shape := ⟨2, ![64, 96]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S64x96 : S_.BroadcastsInDim S64x96 (![] : Fin 0 → Fin S64x96.rank)
  reducesTo_S64x96_S_d0_1 : S64x96.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : IVec S2x800000 32) (main_arg2 : FVec F S800000x32 .f32) (main_arg3 : FVec F S64x96 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S64x96 .f32 := Host.absf main_arg3
  let main_cst_2 : FVec F S_ .f32 := constant S_ .f32 0x7F800000#32
  let main_v10 : FVec F S64x96 .f32 := broadcastInDim S64x96 ![] bcast_S_S64x96 main_cst_2
  let main_v11 : IVec S64x96 1 := cmpf .olt main_v9 main_v10
  let main_c_3 : IVec S_ 1 := constantI S_ 1 1#1
  let main_v12 : IVec S_ 1 := (fun x v => Host.reduce IntOp.andi x v reducesTo_S64x96_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S64x96 : Shape := ⟨2, ![64, 96]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S96x64 : Shape := ⟨2, ![96, 64]⟩
abbrev S1x64 : Shape := ⟨2, ![1, 64]⟩
abbrev S6400x64 : Shape := ⟨2, ![6400, 64]⟩
abbrev S6400x32 : Shape := ⟨2, ![6400, 32]⟩
abbrev S6400x96 : Shape := ⟨2, ![6400, 96]⟩
abbrev S50000 : Shape := ⟨1, ![50000]⟩
abbrev S50000x1 : Shape := ⟨2, ![50000, 1]⟩

abbrev nBuf : Space → Nat
  | .hbm => 40
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S64x96, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S50000x64, .bf16⟩
  | .hbm, ⟨10, _⟩ => ⟨S800000x32, .bf16⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .bf16⟩
  | .hbm, ⟨20, _⟩ => ⟨S96x64, .f32⟩
  | .hbm, ⟨21, _⟩ => ⟨S96x64, .bf16⟩
  | .hbm, ⟨22, _⟩ => ⟨S1x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x64, .f32⟩
  | .hbm, ⟨39, _⟩ => ⟨S50000x64, .f32⟩
  | .local _ .vmem, ⟨0, _⟩ => ⟨S6400x64, .bf16⟩
  | .local _ .vmem, ⟨1, _⟩ => ⟨S6400x64, .bf16⟩
  | .local _ .vmem, ⟨2, _⟩ => ⟨S6400x32, .bf16⟩
  | .local _ .vmem, ⟨3, _⟩ => ⟨S6400x32, .bf16⟩
  | .local _ .vmem, ⟨4, _⟩ => ⟨S96x64, .bf16⟩
  | .local _ .vmem, ⟨5, _⟩ => ⟨S1x64, .f32⟩
  | .local _ .vmem, ⟨6, _⟩ => ⟨S6400x64, .f32⟩
  | .local _ .vmem, ⟨7, _⟩ => ⟨S6400x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  transposes_S64x96_S96x64_1_0 : S64x96.Transposes [1, 0] S96x64
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x32_S6400x32_0_0 : ∀ a, (![0, 0] : Fin 2 → Nat) a + S6400x32.size a ≤ S6400x32.size a
  h_S6400x32 : 0 < S6400x32.numel
  shapeCasts_S6400x32_S6400x32 : S6400x32.ShapeCasts S6400x32
  concatenates_S6400x64_S6400x32_S6400x96_d1 : Shape.Concatenates [S6400x64, S6400x32] S6400x96 1
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S6400x96_S96x64_S6400x64_1_0_0_1_n_n_wf : DotDims.WF S6400x96 S96x64 S6400x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S800000x64.size a
  hwx0_0 : ∀ i : grid0.Coords, EltTy.bits .bf16 = 32 ∨ (Rect.block (s := S800000x64) S6400x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x32.size a ≤ S800000x32.size a
  hwx0_1 : ∀ i : grid0.Coords, EltTy.bits .bf16 = 32 ∨ (Rect.block (s := S800000x32) S6400x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x64.size a ≤ S96x64.size a
  hwx0_2 : ∀ i : grid0.Coords, EltTy.bits .bf16 = 32 ∨ (Rect.block (s := S96x64) S96x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x64.size a ≤ S800000x64.size a
  hwx0_4 : ∀ i : grid0.Coords, EltTy.bits .f32 = 32 ∨ (Rect.block (s := S800000x64) S6400x64.size (cc0_transform_4 i) (hinb0_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x96_S96x64_S6400x64_1_0_0_1_n_n : DotDims S6400x96 S96x64 S6400x64 where
  lhsContracting := [1]
  rhsContracting := [0]
  lhsNonContracting := [0]
  rhsNonContracting := [1]
  lhsBatch := []
  rhsBatch := []
  wf := dot_S6400x96_S96x64_S6400x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v12) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S6400x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S96x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S6400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S64x96 : Shape := ⟨2, ![64, 96]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S96x64 : Shape := ⟨2, ![96, 64]⟩
abbrev S1x64 : Shape := ⟨2, ![1, 64]⟩
abbrev S50000 : Shape := ⟨1, ![50000]⟩
abbrev S50000x1 : Shape := ⟨2, ![50000, 1]⟩

abbrev nBuf : Space → Nat
  | .hbm => 40
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S64x96, .f32⟩
  | .hbm, ⟨4, _⟩ => ⟨S64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S800000x96, .f32⟩
  | .hbm, ⟨19, _⟩ => ⟨S96x64, .f32⟩
  | .hbm, ⟨20, _⟩ => ⟨S800000x64, .f32⟩
  | .hbm, ⟨21, _⟩ => ⟨S1x64, .f32⟩
  | .hbm, ⟨22, _⟩ => ⟨S800000x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x64, .f32⟩
  | .hbm, ⟨39, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  transposes_S64x96_S96x64_1_0 : S64x96.Transposes [1, 0] S96x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x96_S96x64_S800000x64_1_0_0_1_n_n_wf : DotDims.WF S800000x96 S96x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«115269_j88227218195146_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibSideBySide.lean ====
/-
  Two arrays side by side, read at coordinates.

  Concatenating an `[n, a]` array and an `[n, b]` array along the column axis gives an `[n, c]` array, `c = a + b`, whose
  entry `(p, q)` is the left array's `(p, q)` when `q < a` and the right array's `(p, q - a)` otherwise.
-/
import Idealize.ShloMosaic.Lib.Pipeline.Value
import Idealize.ShloMosaic.Lib.ValueIdx

noncomputable section

namespace Idealize.ShloMosaic.SideBySide

open Idealize.ShloMosaic Idealize.ShloMosaic.ValueIdx

variable {α : Type} {n a b c : Nat}

/-- A column of the left part reads the left array. -/
theorem apply_left (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : q.val < a) :
    concatenate ⟨2, ![n, c]⟩ 1 [⟨⟨2, ![n, a]⟩, A⟩, ⟨⟨2, ![n, b]⟩, B⟩] h (ix2 p q) = A (ix2 p ⟨q.val, hq⟩) :=
  concatenate_pair_apply_left (1 : Fin 2) A B h (ix2 p q) rfl (ix2 p ⟨q.val, hq⟩) (fun ax => by
    match ax with
    | ⟨0, _⟩ => rfl
    | ⟨1, _⟩ => rfl)

/-- A column of the right part reads the right array, the left part's width less. -/
theorem apply_right (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : a ≤ q.val)
    (hb : q.val - a < b) :
    concatenate ⟨2, ![n, c]⟩ 1 [⟨⟨2, ![n, a]⟩, A⟩, ⟨⟨2, ![n, b]⟩, B⟩] h (ix2 p q) = B (ix2 p ⟨q.val - a, hb⟩) :=
  concatenate_pair_apply_right (1 : Fin 2) A B h (ix2 p q) rfl rfl (ix2 p ⟨q.val - a, hb⟩) (fun ax hax => by
    match ax with
    | ⟨0, _⟩ => rfl
    | ⟨1, _⟩ => exact absurd rfl hax) (by
    show (q.val - a) + a = q.val
    omega)

end Idealize.ShloMosaic.SideBySide

end
-- ==== Proof.Rows.lean ====
/-
  One entry of a linear layer over two arrays laid side by side.

  `L` is an `[n, 64]` array, `R` an `[n, 32]` array, `Wt` a `[96, 64]` matrix and `b` a bias of 64 entries. Row `r` of
  `[L | R]` has 96 columns: column `k` is `L (r, k)` for `k < 64` and `R (r, k - 64)` from there on (`side`). Entry
  `(r, q)` of `[L | R] · Wt + b` is `∑ k < 96, [L | R] (r, k) · Wt (k, q) + b q` on the extended reals (`lin`).

  Both spellings of the layer read this at an entry: the matrix unit's product into a zero accumulator plus a one-row bias
  repeated down the rows (`matmul_rows`), and the host's `dot_general` plus a bias array (`dotGeneral_rows`). The sum is
  the same sum in the same order on both sides, so nothing about finiteness is used.
-/
import Idealize.ShloMosaic.Lib.ValueLayout
import proofs.«115269_j88227218195146_1_alg».proof.Proof.LibPlainDotAny
import proofs.«115269_j88227218195146_1_alg».proof.Proof.LibSideBySide

noncomputable section

open scoped BigOperators

namespace Cert.EdgeLinear

open Idealize.ShloMosaic Idealize.ShloMosaic.ValueIdx

variable {n : Nat}

/-- Column `k` of row `r` of `[L | R]`. -/
def side (L : (⟨2, ![n, 64]⟩ : Shape).Idx → EReal) (R : (⟨2, ![n, 32]⟩ : Shape).Idx → EReal) (r : Fin n) (k : Fin 96) : EReal :=
  if h : k.val < 64 then L (ix2 r ⟨k.val, h⟩) else R (ix2 r ⟨k.val - 64, by have := k.isLt; omega⟩)

/-- Entry `(r, q)` of `[L | R] · Wt + b`. -/
def lin (L : (⟨2, ![n, 64]⟩ : Shape).Idx → EReal) (R : (⟨2, ![n, 32]⟩ : Shape).Idx → EReal)
    (Wt : (⟨2, ![96, 64]⟩ : Shape).Idx → EReal) (b : Fin 64 → EReal) (r : Fin n) (q : Fin 64) : EReal :=
  (∑ k : Fin 96, side L R r k * Wt (ix2 k q)) + b q

/-- The concatenation of `L` and `R` along the columns, read at `(r, k)`. -/
theorem cat_apply (L : (⟨2, ![n, 64]⟩ : Shape).Idx → EReal) (R : (⟨2, ![n, 32]⟩ : Shape).Idx → EReal)
    (h : Shape.Concatenates [(⟨2, ![n, 64]⟩ : Shape), ⟨2, ![n, 32]⟩] ⟨2, ![n, 96]⟩ 1) (r : Fin n) (k : Fin 96) :
    concatenate ⟨2, ![n, 96]⟩ 1 [⟨⟨2, ![n, 64]⟩, L⟩, ⟨⟨2, ![n, 32]⟩, R⟩] h (ix2 r k) = side L R r k := by
  unfold side
  by_cases hk : k.val < 64
  · rw [dif_pos hk]
    exact SideBySide.apply_left L R h r k hk
  · rw [dif_neg hk]
    exact SideBySide.apply_right L R h r k (by omega) (by have := k.isLt; omega)

/-- Two layers agree at an entry when their rows, their matrix column and their bias entry do. -/
theorem lin_congr {n' : Nat} (L : (⟨2, ![n, 64]⟩ : Shape).Idx → EReal) (R : (⟨2, ![n, 32]⟩ : Shape).Idx → EReal)
    (Wt : (⟨2, ![96, 64]⟩ : Shape).Idx → EReal) (b : Fin 64 → EReal)
    (L' : (⟨2, ![n', 64]⟩ : Shape).Idx → EReal) (R' : (⟨2, ![n', 32]⟩ : Shape).Idx → EReal)
    (Wt' : (⟨2, ![96, 64]⟩ : Shape).Idx → EReal) (b' : Fin 64 → EReal) (r : Fin n) (r' : Fin n') (q : Fin 64)
    (hL : ∀ k : Fin 64, L (ix2 r k) = L' (ix2 r' k)) (hR : ∀ k : Fin 32, R (ix2 r k) = R' (ix2 r' k))
    (hW : ∀ k : Fin 96, Wt (ix2 k q) = Wt' (ix2 k q)) (hb : b q = b' q) :
    lin L R Wt b r q = lin L' R' Wt' b' r' q := by
  unfold lin side
  rw [hb]
  congr 1
  refine Finset.sum_congr rfl fun k _ => ?_
  rw [hW k]
  by_cases hk : k.val < 64
  · rw [dif_pos hk, dif_pos hk, hL]
  · rw [dif_neg hk, dif_neg hk, hR]

/-- The matrix unit's spelling: the product of `[L | R]` and `Wt` into a zero accumulator, plus a one-row bias repeated
    down the rows, at `(r, q)`. The operands may be of any float format: at the ideal instance all are extended reals. -/
theorem matmul_rows {φ₁ φ₂ : FTy} (L : FVec Ideal ⟨2, ![n, 64]⟩ φ₁) (R : FVec Ideal ⟨2, ![n, 32]⟩ φ₁)
    (Wt : FVec Ideal ⟨2, ![96, 64]⟩ φ₂) (brow : FVec Ideal ⟨2, ![1, 64]⟩ .f32)
    (hc : Shape.Concatenates [(⟨2, ![n, 64]⟩ : Shape), ⟨2, ![n, 32]⟩] ⟨2, ![n, 96]⟩ 1)
    (d : DotDims ⟨2, ![n, 96]⟩ ⟨2, ![96, 64]⟩ ⟨2, ![n, 64]⟩) (hd : d = DotDims.plain n 96 64)
    (hb : (⟨2, ![1, 64]⟩ : Shape).Broadcasts ⟨2, ![n, 64]⟩) (r : Fin n) (q : Fin 64) :
    addf (matmul d none (concatenate ⟨2, ![n, 96]⟩ 1 [⟨⟨2, ![n, 64]⟩, L⟩, ⟨⟨2, ![n, 32]⟩, R⟩] hc : FVec Ideal ⟨2, ![n, 96]⟩ φ₁) Wt
        (constant ⟨2, ![n, 64]⟩ .f32 0x00000000#32)) (broadcastTo ⟨2, ![n, 64]⟩ brow hb) (ix2 r q)
      = lin L R Wt (fun q => brow (ix2 (0 : Fin 1) q)) r q := by
  subst hd
  rw [addf_apply, broadcastTo_1b_ab_apply]
  unfold lin
  congr 1
  refine (PlainDot.matmul_zero_apply_any n 96 64 none _ Wt (ix2 r q)).trans ?_
  refine Finset.sum_congr rfl fun k _ => ?_
  show concatenate ⟨2, ![n, 96]⟩ 1 [⟨⟨2, ![n, 64]⟩, L⟩, ⟨⟨2, ![n, 32]⟩, R⟩] hc (ix2 r k) * Wt (ix2 k q) = _
  rw [cat_apply]

/-- The host's spelling: `dot_general` of `[L | R]` and `Wt` plus a bias array whose entry `(r, q)` is `b q`. -/
theorem dotGeneral_rows {φ₁ φ₂ : FTy} (L : FVec Ideal ⟨2, ![n, 64]⟩ φ₁) (R : FVec Ideal ⟨2, ![n, 32]⟩ φ₁)
    (Wt : FVec Ideal ⟨2, ![96, 64]⟩ φ₂) (B : FVec Ideal ⟨2, ![n, 64]⟩ .f32) (b : Fin 64 → EReal)
    (hc : Shape.Concatenates [(⟨2, ![n, 64]⟩ : Shape), ⟨2, ![n, 32]⟩] ⟨2, ![n, 96]⟩ 1)
    (d : DotDims ⟨2, ![n, 96]⟩ ⟨2, ![96, 64]⟩ ⟨2, ![n, 64]⟩) (hd : d = DotDims.plain n 96 64)
    (r : Fin n) (q : Fin 64) (hB : B (ix2 r q) = b q) :
    addf (Host.dotGeneral d none (concatenate ⟨2, ![n, 96]⟩ 1 [⟨⟨2, ![n, 64]⟩, L⟩, ⟨⟨2, ![n, 32]⟩, R⟩] hc : FVec Ideal ⟨2, ![n, 96]⟩ φ₁) Wt) B
        (ix2 r q)
      = lin L R Wt b r q := by
  subst hd
  rw [addf_apply, hB]
  unfold lin
  congr 1
  refine (PlainDot.dotGeneral_apply_any n 96 64 none .single _ Wt (ix2 r q)).trans ?_
  refine Finset.sum_congr rfl fun k _ => ?_
  show concatenate ⟨2, ![n, 96]⟩ 1 [⟨⟨2, ![n, 64]⟩, L⟩, ⟨⟨2, ![n, 32]⟩, R⟩] hc (ix2 r k) * Wt (ix2 k q) = _
  rw [cat_apply]

end Cert.EdgeLinear

end
-- ==== Proof.KernelMsgs.lean ====
/-
  What the pallas_call leaves in the messages array.

  The region is gridded over 125 tiles of 6400 edges. At tile `t` the body reads rows `6400 t … 6400 t + 6399` of the
  gathered node features and of the edge features, the whole `[96, 64]` matrix and the one bias row, and stores
  `[xs | ef] · Wt + b` for those rows. So entry `(e, q)` of the array after the run is
  `∑ k < 96, [xs | ef] (e, k) · Wt (k, q) + b (0, q)`, the arrays being the ones the region finds (`msgs`): each tile's
  write-back is the matching block of that array (`flushed_eq`), and the tile `e / 6400` covers row `e` (`covered`).
-/
import proofs.«115269_j88227218195146_1_alg».proof.Proof.Gen.KernelIdeal.Frame
import Idealize.ShloMosaic.Lib.Pipeline.Value
import proofs.«115269_j88227218195146_1_alg».proof.Proof.Rows

set_option maxRecDepth 16384

noncomputable section

namespace Cert.KernelIdeal.Msgs

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The matrix unit's dimension numbers are those of a plain `6400×96` by `96×64` product. -/
theorem dot_plain : dot_S6400x96_S96x64_S6400x64_1_0_0_1_n_n = DotDims.plain 6400 96 64 := rfl

/-- The body's stored value at row `p`, column `q` of the tile: the layer's entry over the four loaded blocks. -/
theorem pay_apply (x0 : Vec Ideal S6400x64 .bf16) (x1 : Vec Ideal S6400x32 .bf16) (x2 : Vec Ideal S96x64 .bf16)
    (x3 : Vec Ideal S1x64 .f32) (p : Fin 6400) (q : Fin 64) :
    k0_pay1 (F := Ideal) x0 x1 x2 x3 (ix2 p q) = EdgeLinear.lin x0 x1 x2 (fun q => x3 (ix2 (0 : Fin 1) q)) p q := by
  unfold k0_pay1
  rw [shapeCast_self x0, shapeCast_self x1, shapeCast_self x2, shapeCast_self x3]
  exact EdgeLinear.matmul_rows (n := 6400) (φ₁ := .bf16) (φ₂ := .bf16) x0 x1 x2 x3 _ _ dot_plain _ p q

/-- The arrays the region finds, at their literal types: the gathered rows, the edge features, the matrix, the bias row. -/
abbrev xsArr (c : Dev nD) : Vec Ideal S800000x64 .bf16 := V m c main_v12
abbrev efArr (c : Dev nD) : Vec Ideal S800000x32 .bf16 := V m c main_v5
abbrev wtArr (c : Dev nD) : Vec Ideal S96x64 .bf16 := V m c main_v14
abbrev bArr (c : Dev nD) : Vec Ideal S1x64 .f32 := V m c main_v15

/-- The messages array: entry `(e, q)` is the layer's entry over those arrays. -/
def msgs (c : Dev nD) : Vec Ideal S800000x64 .f32 := fun i =>
  EdgeLinear.lin (xsArr m c) (efArr m c) (wtArr m c) (fun q => bArr m c (ix2 (0 : Fin 1) q)) (i 0) (i 1)

/-- The printed index maps over the 125 tiles: the two row-tiled inputs and the output sit at tile `t`, the matrix and
    the bias row at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of tile `t`'s block of the gathered rows is row `6400 t + p` of the array. -/
theorem xs_blk (c : Dev nD) (t : Fin cfg0.N) (p : Fin 6400) (e : Fin 800000) (he : e.val = t.val * 6400 + p.val) (k : Fin 64) :
    (iblk m c 0 t : Vec Ideal S6400x64 .bf16) (ix2 p k) = xsArr m c (ix2 e k) := by
  obtain ⟨e0, e1, -⟩ := idx_facts t
  unfold iblk
  rw [View.read_apply]
  show V m c main_v12 _ = V m c main_v12 _
  congr 1
  funext a
  apply Fin.ext
  match a with
  | ⟨0, _⟩ => show win0_0.index t (0 : Fin 2) * 6400 + 1 * p.val = e.val; rw [e0, he]; omega
  | ⟨1, _⟩ => show win0_0.index t (1 : Fin 2) * 64 + 1 * k.val = k.val; rw [e1]; omega

/-- The same for the edge features. -/
theorem ef_blk (c : Dev nD) (t : Fin cfg0.N) (p : Fin 6400) (e : Fin 800000) (he : e.val = t.val * 6400 + p.val) (k : Fin 32) :
    (iblk m c 1 t : Vec Ideal S6400x32 .bf16) (ix2 p k) = efArr m c (ix2 e k) := by
  obtain ⟨-, -, e0, e1, -⟩ := idx_facts t
  unfold iblk
  rw [View.read_apply]
  show V m c main_v5 _ = V m c main_v5 _
  congr 1
  funext a
  apply Fin.ext
  match a with
  | ⟨0, _⟩ => show win0_1.index t (0 : Fin 2) * 6400 + 1 * p.val = e.val; rw [e0, he]; omega
  | ⟨1, _⟩ => show win0_1.index t (1 : Fin 2) * 32 + 1 * k.val = k.val; rw [e1]; omega

/-- The matrix's one block is the matrix. -/
theorem wt_blk (c : Dev nD) (t : Fin cfg0.N) (k : Fin 96) (q : Fin 64) :
    (iblk m c 2 t : Vec Ideal S96x64 .bf16) (ix2 k q) = wtArr m c (ix2 k q) := by
  obtain ⟨-, -, -, -, e0, e1, -⟩ := idx_facts t
  unfold iblk
  rw [View.read_apply]
  show V m c main_v14 _ = V m c main_v14 _
  congr 1
  funext a
  apply Fin.ext
  match a with
  | ⟨0, _⟩ => show win0_2.index t (0 : Fin 2) * 96 + 1 * k.val = k.val; rw [e0]; omega
  | ⟨1, _⟩ => show win0_2.index t (1 : Fin 2) * 64 + 1 * q.val = q.val; rw [e1]; omega

/-- The bias row's one block is the bias row. -/
theorem b_blk (c : Dev nD) (t : Fin cfg0.N) (q : Fin 64) :
    (iblk m c 3 t : Vec Ideal S1x64 .f32) (ix2 (0 : Fin 1) q) = bArr m c (ix2 (0 : Fin 1) q) := by
  obtain ⟨-, -, -, -, -, -, e0, e1, -⟩ := idx_facts t
  unfold iblk
  rw [View.read_apply]
  show V m c main_v15 _ = V m c main_v15 _
  congr 1
  funext a
  apply Fin.ext
  match a with
  | ⟨0, _⟩ => show win0_3.index t (0 : Fin 2) * 1 + 1 * 0 = 0; rw [e0]
  | ⟨1, _⟩ => show win0_3.index t (1 : Fin 2) * 64 + 1 * q.val = q.val; rw [e1]; omega

/-- WHAT TILE `t` WRITES BACK is block `t` of `msgs`. -/
theorem flushed_eq (c : Dev nD) (t : Fin cfg0.N) :
    (dats m 0 c).flushed 4 t = ((cfg0.win 4).blk t).view.read (Elt Ideal) (msgs m c) := by
  show (cfg0.win 4).cut (grid0.coords t) ((dats m 0 c).after 4 t) = _
  rw [after0_4]
  unfold out0_4
  rw [View.canon_unit_zero hz]
  simp only [View.ld_unit_zero (S := S6400x64) hz, View.ld_unit_zero (S := S6400x32) hz, View.ld_unit_zero (S := S96x64) hz,
    View.ld_unit_zero (S := S1x64) hz]
  obtain ⟨-, -, -, -, -, -, -, -, e0, e1⟩ := idx_facts t
  funext j
  obtain ⟨p, q, rfl⟩ : ∃ (p : Fin 6400) (q : Fin 64), j = ix2 p q := ⟨j 0, j 1, eq_ix2 j⟩
  have hp : p.val < 6400 := p.isLt
  show k0_pay1 (F := Ideal) (iblk m c 0 t) (iblk m c 1 t) (iblk m c 2 t) (iblk m c 3 t) (ix2 p q)
    = msgs m c (((cfg0.win 4).blk t).view.emb (ix2 p q))
  refine (pay_apply (iblk m c 0 t) (iblk m c 1 t) (iblk m c 2 t) (iblk m c 3 t) p q).trans ?_
  have h0 : ((((cfg0.win 4).blk t).view.emb (ix2 p q)) 0).val = t.val * 6400 + p.val := by
    show win0_4.index t (0 : Fin 2) * 6400 + 1 * p.val = _; rw [e0]; omega
  have h1 : (((cfg0.win 4).blk t).view.emb (ix2 p q)) 1 = q := by
    apply Fin.ext
    show win0_4.index t (1 : Fin 2) * 64 + 1 * q.val = _; rw [e1]; omega
  unfold msgs
  rw [h1]
  exact EdgeLinear.lin_congr _ _ _ _ _ _ _ _ p _ q (fun k => xs_blk m c t p _ h0 k) (fun k => ef_blk m c t p _ h0 k)
    (fun k => wt_blk m c t k q) (b_blk m c t q)

/-- An index of the array is in tile `t`'s block iff each coordinate is in the block's range on its axis. -/
theorem mem_blk (t : Fin cfg0.N) (i : S800000x64.Idx) :
    i ∈ ((cfg0.win 4).blk t).view.set ↔ ∀ a : Fin 2, win0_4.index t a * S6400x64.size a ≤ (i a).val ∧ (i a).val < win0_4.index t a * S6400x64.size a + S6400x64.size a := by
  show i ∈ ((View.whole main_v16).slice (win0_4.rect t)).set ↔ _
  rw [View.set_slice_whole, Rect.mem_set_unit]
  exact Iff.rfl

/-- Every row is in some tile's block: row `e` in tile `e / 6400`. -/
theorem covered (i : S800000x64.Idx) : ∃ t : Fin cfg0.N, (cfg0.win 4).flush t = true ∧ i ∈ ((cfg0.win 4).blk t).view.set := by
  have hi0 : (i 0).val < 800000 := (i 0).isLt
  have hi1 : (i 1).val < 64 := (i 1).isLt
  have hN : cfg0.N = 125 := N_0
  let t : Fin cfg0.N := ⟨(i 0).val / 6400, by rw [hN]; omega⟩
  obtain ⟨-, -, -, -, -, -, -, -, e0, e1⟩ := idx_facts t
  have ht : t.val = (i 0).val / 6400 := rfl
  refine ⟨t, flush0_4 t, ?_⟩
  rw [mem_blk]
  intro a
  match a with
  | ⟨0, _⟩ => show win0_4.index t (0 : Fin 2) * 6400 ≤ (i 0).val ∧ (i 0).val < win0_4.index t (0 : Fin 2) * 6400 + 6400; rw [e0, ht]; omega
  | ⟨1, _⟩ => show win0_4.index t (1 : Fin 2) * 64 ≤ (i 1).val ∧ (i 1).val < win0_4.index t (1 : Fin 2) * 64 + 64; rw [e1]; omega

/-- THE ARRAY after the run is `msgs`. -/
theorem final (c : Dev nD) : (dats m 0 c).arrAt 4 cfg0.N = msgs m c :=
  (dats m 0 c).arrAt_eq_of_cover 4 (msgs m c) (fun t _ => flushed_eq m c t) covered

end Cert.KernelIdeal.Msgs

end
-- ==== Proof.RefRows.lean ====
/-
  The reference's messages array, read at an entry.

  The reference gathers the node rows, lays the edge features beside them, multiplies by the transposed weight matrix
  with one `dot_general` and adds the bias repeated down the rows. Entry `(e, q)` of that array is the layer's entry
  `∑ k < 96, [xs | ef] (e, k) · Wᵀ (k, q) + b q` over the gathered rows, the edge features, the transposed matrix and
  the bias.
-/
import proofs.«115269_j88227218195146_1_alg».proof.Proof.Gen.ReferenceIdeal.Read
import proofs.«115269_j88227218195146_1_alg».proof.Proof.Rows

noncomputable section

namespace Cert.ReferenceIdeal.Rows

open Cert.ReferenceIdeal Cert.ReferenceIdeal.Gen Cert.ReferenceIdeal.Read Idealize.ShloMosaic Idealize.ShloMosaic.ValueIdx

/-- The host product's dimension numbers are those of a plain `800000×96` by `96×64` product. -/
theorem dot_plain : dot_S800000x96_S96x64_S800000x64_1_0_0_1_n_n = DotDims.plain 800000 96 64 := rfl

/-- The bias laid as a row and repeated down the rows reads, at `(e, q)`, the bias at `q`. -/
theorem bias_apply (x4 : (⟨S64, .f32⟩ : BufTy).Contents (Elt Ideal)) (e : Fin 800000) (q : Fin 64) :
    val_main_v15 (F := Ideal) x4 (ix2 e q) = x4 (ix1 q) := by
  rw [val_main_v15_apply, val_main_v14_apply]
  refine congrArg x4 (funext fun a => ?_)
  match a with
  | ⟨0, _⟩ => rfl

/-- Entry `(e, q)` of the reference's messages array. -/
theorem msg_apply (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x3 : (⟨S64x96, .f32⟩ : BufTy).Contents (Elt Ideal))
    (x4 : (⟨S64, .f32⟩ : BufTy).Contents (Elt Ideal)) (e : Fin 800000) (q : Fin 64) :
    val_main_v16 (F := Ideal) x0 x1 x2 x3 x4 (ix2 e q)
      = EdgeLinear.lin (val_main_v10 (F := Ideal) x0 x1) x2 (val_main_v12 (F := Ideal) x3) (fun q => x4 (ix1 q)) e q := by
  unfold val_main_v16 val_main_v13 val_main_v11
  exact EdgeLinear.dotGeneral_rows (n := 800000) (φ₁ := .f32) (φ₂ := .f32) (val_main_v10 (F := Ideal) x0 x1) x2
    (val_main_v12 (F := Ideal) x3) (val_main_v15 (F := Ideal) x4) (fun q => x4 (ix1 q)) _ _ dot_plain e q (bias_apply x4 e q)

end Cert.ReferenceIdeal.Rows

end
-- ==== Proof.Bridge.lean ====
/-
  The idealized kernel's result is the reference's function of the same arguments.

  Around the pallas_call the kernel's @main does, on the host, what the reference does: before it, the row gather (of the
  node features narrowed to bf16, which at the ideal instance is no change), the transposed weight matrix and the bias
  laid as a row; after it, the two segment sums over the destination indices, the clamp of the counts at one and the
  quotient. So the arrays the region finds are the reference's own intermediate arrays (`xs_eq`, `ef_eq`, `wt_eq`,
  `b_eq`), the messages array the region leaves is the reference's messages array entry by entry (`msgs_eq`: both are
  the same sum over 96 columns plus the bias), and the host operations after the region, applied to equal arrays, give
  the reference's result (`result_eq`). `run` is the kernel's run with its result array so named.
-/
import proofs.«115269_j88227218195146_1_alg».proof.Proof.KernelMsgs
import proofs.«115269_j88227218195146_1_alg».proof.Proof.RefRows
import Idealize.ShloMosaic.Lib.StableHlo.Run
import Idealize.ShloMosaic.Lib.ValueLayout

set_option maxRecDepth 16384

noncomputable section

namespace Cert.KernelIdeal.Bridge

open Cert.KernelIdeal Cert.KernelIdeal.Gen Cert.KernelIdeal.Msgs Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The rows the region finds gathered are the reference's gathered rows: the same gather at the same normalised
    indices, of the node features narrowed to bf16, which at the ideal instance are the node features. -/
theorem xs_eq (c : Dev nD) : xsArr m c = Cert.ReferenceIdeal.Read.val_main_v10 (F := Ideal) (m ((c.tc : Thread nD τ).loc main_arg0)) (m ((c.tc : Thread nD τ).loc main_arg1)) := by
  show StableHlo.after hostOps0 (fun b => m (c, b)) (Proc.devRef .tc main_v12) = _
  after_results
  rfl

/-- The edge features narrowed to bf16 are the edge features. -/
theorem ef_eq (c : Dev nD) : efArr m c = (m ((c.tc : Thread nD τ).loc main_arg2)) := by
  show StableHlo.after hostOps0 (fun b => m (c, b)) (Proc.devRef .tc main_v5) = _
  after_results
  rfl

/-- The transposed weight matrix narrowed to bf16 is the reference's transposed weight matrix. -/
theorem wt_eq (c : Dev nD) : wtArr m c = Cert.ReferenceIdeal.Read.val_main_v12 (F := Ideal) (m ((c.tc : Thread nD τ).loc main_arg3)) := by
  show StableHlo.after hostOps0 (fun b => m (c, b)) (Proc.devRef .tc main_v14) = _
  after_results
  rfl

/-- The bias laid as one row reads, at column `q`, the bias at `q`. -/
theorem b_eq (c : Dev nD) (q : Fin 64) : bArr m c (ix2 (0 : Fin 1) q) = ((m ((c.tc : Thread nD τ).loc main_arg4)) : S64.Idx → EReal) (ix1 q) := by
  have e : (bArr m c : S1x64.Idx → EReal) = shapeCast S1x64 ((m ((c.tc : Thread nD τ).loc main_arg4)) : S64.Idx → EReal) shapeCasts_S64_S1x64 := by
    show StableHlo.after hostOps0 (fun b => m (c, b)) (Proc.devRef .tc main_v15) = _
    after_results
    rfl
  rw [e]
  exact shapeCast_a_1a_apply _ _ 0 q

/-- The messages array the region leaves is the reference's: at `(e, q)` both are
    `∑ k < 96, [xs | ef] (e, k) · Wᵀ (k, q) + b q` over equal arrays. -/
theorem msgs_eq (c : Dev nD) : msgs m c = Cert.ReferenceIdeal.Read.val_main_v16 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨e, q, rfl⟩ : ∃ (e : Fin 800000) (q : Fin 64), i = ix2 e q := ⟨i 0, i 1, eq_ix2 i⟩
  refine Eq.trans ?_ (Cert.ReferenceIdeal.Rows.msg_apply _ _ _ _ _ e q).symm
  exact EdgeLinear.lin_congr _ _ _ _ _ _ _ _ e e q (fun k => congrFun (xs_eq m c) _) (fun k => congrFun (ef_eq m c) _)
    (fun k => congrFun (wt_eq m c) _) (b_eq m c q)

/-- The result buffer after the host operations that follow the region: they read the messages array the region left and
    the destination indices computed before it, and are the reference's last operations on equal operands. -/
theorem result_eq (c : Dev nD) :
    Pipeline.afterTail₀ cfgs (dats m) 0 (V0 m) [hostOps1] c main_v28
      = Cert.ReferenceIdeal.Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v28) = _
  after_results
  have h16 : Pipeline.withArrays (cfgs 0).spec c (V0 m c) (fun w => (dats m 0 c).arrAt w (cfgs 0).N) (Proc.devRef .tc main_v16)
      = Cert.ReferenceIdeal.Read.val_main_v16 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
    (Pipeline.withArrays_arr spec0 launch0.win.arr_inj c _ _ 4).trans ((final m c).trans (msgs_eq m c))
  have h3 : Pipeline.withArrays (cfgs 0).spec c (V0 m c) (fun w => (dats m 0 c).arrAt w (cfgs 0).N) (Proc.devRef .tc main_v3)
      = Cert.ReferenceIdeal.Read.val_main_v3 (F := Ideal) (m ((c.tc : Thread nD τ).loc main_arg1)) :=
    (Pipeline.withArrays_of_ne spec0 c (V0 m c) _ main_v3 (by decide)).trans (by
      show StableHlo.after hostOps0 (fun b => m (c, b)) (Proc.devRef .tc main_v3) = _
      after_results
      rfl)
  rw [h16, h3]
  rfl

/-- The run, read: every weakly fair execution of the idealized kernel terminates with its result array at the
    reference's function of the argument arrays, the arguments unchanged. -/
theorem run : θ_run defs (onTc (τ := τ) (main (F := Ideal))) ⟨m, fun _ => 0, ρ⟩ fun r => ∀ c : Dev nD,
      r.2.mem ((c.tc : Thread nD τ).loc main_v28) = Cert.ReferenceIdeal.Read.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v28 (Pipeline.mem_restRefs_of main_v28 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

end Cert.KernelIdeal.Bridge

end
-- ==== Proof.lean ====
/-
  The certificate of an edge-conditioned message-passing layer: gather the source node's features for every edge, lay
  the edge's own features beside them, apply one linear layer, and average the messages over each destination node.

  The kernel narrows the node features, the edge features and the weight matrix to bf16, gathers on the host, runs the
  linear layer in a pallas_call over 125 tiles of 6400 edges (the matrix unit's product of `[xs | ef]` and `Wᵀ` into a
  zero accumulator, plus the bias row), and does the two segment sums, the clamp of the counts at one and the quotient on
  the host again. The reference does the same with one `dot_general` and no narrowing. At the ideal instance a change
  of float format is the identity, and the tile's product and the whole `dot_general` are at every entry the same sum
  over the 96 columns in the same order, so the two messages arrays are equal entry by entry and everything after them
  is the same function of equal operands. No algebraic law beyond that is used, and the precondition is never opened.

  The frames of the two kernel programs are the generated ones; the reference's frame and value are its generated run
  (Gen/ReferenceIdeal/Run.lean, read one operation at a time by Gen/ReferenceIdeal/Read.lean). Written by hand: the
  layer's entry as one sum and its two spellings (Proof/Rows.lean), the array the region leaves, tile by tile
  (Proof/KernelMsgs.lean), the reference's messages array at an entry (Proof/RefRows.lean), and the kernel's host
  operations around the region set beside the reference's (Proof/Bridge.lean).
-/
import proofs.«115269_j88227218195146_1_alg».proof.Defs
import proofs.«115269_j88227218195146_1_alg».proof.Proof.Gen.Kernel
import proofs.«115269_j88227218195146_1_alg».proof.Proof.Gen.Kernel.Skeleton
import proofs.«115269_j88227218195146_1_alg».proof.Proof.Gen.Kernel.Launch
import proofs.«115269_j88227218195146_1_alg».proof.Proof.Gen.Kernel.Points
import proofs.«115269_j88227218195146_1_alg».proof.Proof.Gen.Kernel.Frame
import proofs.«115269_j88227218195146_1_alg».proof.Proof.Gen.KernelIdeal
import proofs.«115269_j88227218195146_1_alg».proof.Proof.Gen.KernelIdeal.Skeleton
import proofs.«115269_j88227218195146_1_alg».proof.Proof.Gen.KernelIdeal.Launch
import proofs.«115269_j88227218195146_1_alg».proof.Proof.Gen.KernelIdeal.Points
import proofs.«115269_j88227218195146_1_alg».proof.Proof.Gen.KernelIdeal.Frame
import proofs.«115269_j88227218195146_1_alg».proof.Proof.Gen.ReferenceIdeal
import proofs.«115269_j88227218195146_1_alg».proof.Proof.Gen.Pre_finite_inputs
import proofs.«115269_j88227218195146_1_alg».proof.Proof.Gen.ReferenceIdeal.Run
import proofs.«115269_j88227218195146_1_alg».proof.Proof.Gen.ReferenceIdeal.Read
import proofs.«115269_j88227218195146_1_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the reference's function of the argument arrays, which agree. -/
theorem algebraic : Cert.algebraic_KernelIdeal_ReferenceIdeal := by
  intro m ρ m' ρ' _ hagree
  refine ⟨fun c => Cert.ReferenceIdeal.Read.val_main_v28 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq _ _ _ _ _).trans ?_
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
